-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x6 : Shape := ⟨2, ![8388608, 6]⟩
abbrev S_ : Shape := ⟨0, ![]⟩

class Facts : Prop where
  bcast_S_S8388608x6 : S_.BroadcastsInDim S8388608x6 (![] : Fin 0 → Fin S8388608x6.rank)
  reducesTo_S8388608x6_S_d0_1 : S8388608x6.ReducesTo [0, 1] S_
  h_S_ : 0 < S_.numel

variable [Facts]

def fn {F : FTy → Type} [FloatOps F] (main_arg0 : FVec F S8388608x6 .f32) : IVec S_ 1 :=
  let main_v0 : FVec F S8388608x6 .f32 := Host.absf main_arg0
  let main_cst : FVec F S_ .f32 := constant S_ .f32 0x7F800000#32
  let main_v1 : FVec F S8388608x6 .f32 := broadcastInDim S8388608x6 ![] bcast_S_S8388608x6 main_cst
  let main_v2 : IVec S8388608x6 1 := cmpf .olt main_v0 main_v1
  let main_c : IVec S_ 1 := constantI S_ 1 1#1
  let main_v3 : IVec S_ 1 := (fun x v => Host.reduce IntOp.andi x v reducesTo_S8388608x6_S_d0_1 h_S_) main_v2 main_c
  main_v3
-- ==== Kernel.lean ====
abbrev S8388608x6 : Shape := ⟨2, ![8388608, 6]⟩
abbrev S8388608x9 : Shape := ⟨2, ![8388608, 9]⟩
abbrev S65536x6 : Shape := ⟨2, ![65536, 6]⟩
abbrev S65536x9 : Shape := ⟨2, ![65536, 9]⟩
abbrev S65536x1 : Shape := ⟨2, ![65536, 1]⟩
abbrev S8388608x3x3 : Shape := ⟨3, ![8388608, 3, 3]⟩

abbrev nBuf : Space → Nat
  | .hbm => 3
  | .vmem => 4
  | .smem => 0
  | _ => 0

abbrev bufTy : (tb : Table) → Fin (tcTables nBuf tb) → BufTy
  | .hbm, ⟨0, _⟩ => ⟨S8388608x6, .f32⟩
  | .hbm, ⟨1, _⟩ => ⟨S8388608x9, .f32⟩
  | .hbm, ⟨2, _⟩ => ⟨S8388608x3x3, .f32⟩
  | .local _ .vmem, ⟨0, _⟩ => ⟨S65536x6, .f32⟩
  | .local _ .vmem, ⟨1, _⟩ => ⟨S65536x6, .f32⟩
  | .local _ .vmem, ⟨2, _⟩ => ⟨S65536x9, .f32⟩
  | .local _ .vmem, ⟨3, _⟩ => ⟨S65536x9, .f32⟩
  | _, _ => ⟨S8388608x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S65536x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S65536x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S65536x6_S65536x6_0_0 : ∀ a, (![0, 0] : Fin 2 → Nat) a + S65536x6.size a ≤ S65536x6.size a
  h_S65536x6 : 0 < S65536x6.numel
  slices_S65536x6_o0_0_S65536x1 : S65536x6.Slices ![0, 0] S65536x1
  slices_S65536x6_o0_1_S65536x1 : S65536x6.Slices ![0, 1] S65536x1
  slices_S65536x6_o0_2_S65536x1 : S65536x6.Slices ![0, 2] S65536x1
  slices_S65536x6_o0_3_S65536x1 : S65536x6.Slices ![0, 3] S65536x1
  slices_S65536x6_o0_4_S65536x1 : S65536x6.Slices ![0, 4] S65536x1
  slices_S65536x6_o0_5_S65536x1 : S65536x6.Slices ![0, 5] S65536x1
  concatenates_S65536x1_S65536x1_S65536x1_S65536x1_S65536x1_S65536x1_S65536x1_S65536x1_S65536x1_S65536x9_d1 : Shape.Concatenates [S65536x1, S65536x1, S65536x1, S65536x1, S65536x1, S65536x1, S65536x1, S65536x1, S65536x1] S65536x9 1
  inb_S65536x9_S65536x9_0_0 : ∀ a, (![0, 0] : Fin 2 → Nat) a + S65536x9.size a ≤ S65536x9.size a
  h_S65536x9 : 0 < S65536x9.numel
  shapeCasts_S8388608x9_S8388608x3x3 : S8388608x9.ShapeCasts S8388608x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S65536x6.size a ≤ S8388608x6.size a
  hwx0_0 : ∀ i : grid0.Coords, EltTy.bits .f32 = 32 ∨ (Rect.block (s := S8388608x6) S65536x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S65536x9.size a ≤ S8388608x9.size a
  hwx0_1 : ∀ i : grid0.Coords, EltTy.bits .f32 = 32 ∨ (Rect.block (s := S8388608x9) S65536x9.size (cc0_transform_1 i) (hinb0_1 i)).WholeWords (EltTy.packing .f32)

variable [Facts₀]

abbrev win0_0 : Pipeline.Window sig grid0 :=
  Pipeline.Window.ofSpec (Memref.whole main_arg0) S65536x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S65536x9.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8388608x6 : Shape := ⟨2, ![8388608, 6]⟩
abbrev S6 : Shape := ⟨1, ![6]⟩
abbrev S_ : Shape := ⟨0, ![]⟩
abbrev S8388608x3x3 : Shape := ⟨3, ![8388608, 3, 3]⟩
abbrev S6x1 : Shape := ⟨2, ![6, 1]⟩
abbrev S6x2 : Shape := ⟨2, ![6, 2]⟩

abbrev nBuf : Space → Nat
  | .hbm => 20
  | .vmem => 0
  | .smem => 0
  | _ => 0

abbrev bufTy : (tb : Table) → Fin (tcTables nBuf tb) → BufTy
  | .hbm, ⟨0, _⟩ => ⟨S8388608x6, .f32⟩
  | .hbm, ⟨1, _⟩ => ⟨S6, .i32⟩
  | .hbm, ⟨2, _⟩ => ⟨S6, .i1⟩
  | .hbm, ⟨3, _⟩ => ⟨S6, .i32⟩
  | .hbm, ⟨4, _⟩ => ⟨S6, .i1⟩
  | .hbm, ⟨5, _⟩ => ⟨S_, .f32⟩
  | .hbm, ⟨6, _⟩ => ⟨S8388608x3x3, .f32⟩
  | .hbm, ⟨7, _⟩ => ⟨S_, .i32⟩
  | .hbm, ⟨8, _⟩ => ⟨S6, .i32⟩
  | .hbm, ⟨9, _⟩ => ⟨S6, .i32⟩
  | .hbm, ⟨10, _⟩ => ⟨S6, .i32⟩
  | .hbm, ⟨11, _⟩ => ⟨S_, .i32⟩
  | .hbm, ⟨12, _⟩ => ⟨S6, .i32⟩
  | .hbm, ⟨13, _⟩ => ⟨S6, .i32⟩
  | .hbm, ⟨14, _⟩ => ⟨S6, .i32⟩
  | .hbm, ⟨15, _⟩ => ⟨S6x1, .i32⟩
  | .hbm, ⟨16, _⟩ => ⟨S6x1, .i32⟩
  | .hbm, ⟨17, _⟩ => ⟨S6x2, .i32⟩
  | .hbm, ⟨18, _⟩ => ⟨S8388608x3x3, .f32⟩
  | .hbm, ⟨19, _⟩ => ⟨S8388608x3x3, .f32⟩
  | _, _ => ⟨S8388608x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_cst : Ref sig .tc := ⟨.hbm, 5, rfl⟩
abbrev main_v0 : Ref sig .tc := ⟨.hbm, 6, rfl⟩
abbrev main_c_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_4 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S_S8388608x3x3 : S_.BroadcastsInDim S8388608x3x3 (![] : Fin 0 → Fin S8388608x3x3.rank)
  bcast_S_S6 : S_.BroadcastsInDim S6 (![] : Fin 0 → Fin S6.rank)
  bcast_S6_S6x1_0 : S6.BroadcastsInDim S6x1 (![0] : Fin 1 → Fin S6x1.rank)
  concatenates_S6x1_S6x1_S6x2_d1 : Shape.Concatenates [S6x1, S6x1] S6x2 1
  scatter_S8388608x3x3_S6x2_S8388608x6_0_12_12_1_wf : ScatterDims.WF S8388608x3x3 S6x2 S8388608x6 [0] [1, 2] [1, 2] 1
  dot_S8388608x3x3_S8388608x3x3_S8388608x3x3_2_2_1_1_0_0_wf : DotDims.WF S8388608x3x3 S8388608x3x3 S8388608x3x3 [2] [2] [1] [1] [0] [0]

variable [Facts₀]

def scatter_S8388608x3x3_S6x2_S8388608x6_0_12_12_1 : ScatterDims S8388608x3x3 S6x2 S8388608x6 where
  updateWindowDims := [0]
  insertedWindowDims := [1, 2]
  scatterDimsToOperandDims := [1, 2]
  indexVectorDim := 1
  wf := scatter_S8388608x3x3_S6x2_S8388608x6_0_12_12_1_wf
def dot_S8388608x3x3_S8388608x3x3_S8388608x3x3_2_2_1_1_0_0 : DotDims S8388608x3x3 S8388608x3x3 S8388608x3x3 where
  lhsContracting := [2]
  rhsContracting := [2]
  lhsNonContracting := [1]
  rhsNonContracting := [1]
  lhsBatch := [0]
  rhsBatch := [0]
  wf := dot_S8388608x3x3_S8388608x3x3_S8388608x3x3_2_2_1_1_0_0_wf

class Facts : Prop extends Facts₀ where

variable [Facts]
-- ==== Proof.Spec.lean ====
/-
  The common value of the two programs, over the extended reals.

  A packed vector `(l₀, …, l₅)` fills the lower triangle of a 3 × 3 matrix `L` row by row:
  `L = [[l₀, 0, 0], [l₁, l₂, 0], [l₃, l₄, l₅]]` (`slot p q` is the packed position held at row `p`, column `q`,
  none above the diagonal; `tri` is `L`). The result is the Gram matrix `Q = L Lᵀ`, `Q p q = ∑ₖ L p k · L q k`
  (`gram`), for each of the 8388608 rows of the input independently.

  One side computes `Q` as that sum over the full rows of `L`, zeros included; the other writes the nine entries in
  closed form, row-major (`closed`). The two agree on the extended reals without any finiteness assumption: the
  only laws used are `0 · a = 0`, `a + 0 = a` and the commutativity of the product, which hold at ±∞ too.
-/
import Idealize.ShloMosaic.Lib.ValueIdx

noncomputable section

open scoped BigOperators

namespace Cert.CholGram

open Idealize.ShloMosaic Idealize.ShloMosaic.ValueIdx

/-- The packed input: 8388608 rows of six entries. -/
abbrev SIn : Shape := ⟨2, ![8388608, 6]⟩
/-- The result: one 3 × 3 matrix per row. -/
abbrev SOut : Shape := ⟨3, ![8388608, 3, 3]⟩

/-- The matrix row of packed position `k`. -/
def rowOf : Fin 6 → Fin 3 := ![0, 1, 1, 2, 2, 2]
/-- The matrix column of packed position `k`. -/
def colOf : Fin 6 → Fin 3 := ![0, 0, 1, 0, 1, 2]

/-- The packed position held at row `p`, column `q` of the lower triangle; none above the diagonal. -/
def slot (p q : Fin 3) : Option (Fin 6) :=
  match p, q with
  | ⟨0, _⟩, ⟨0, _⟩ => some 0
  | ⟨1, _⟩, ⟨0, _⟩ => some 1
  | ⟨1, _⟩, ⟨1, _⟩ => some 2
  | ⟨2, _⟩, ⟨0, _⟩ => some 3
  | ⟨2, _⟩, ⟨1, _⟩ => some 4
  | ⟨2, _⟩, ⟨2, _⟩ => some 5
  | _, _ => none

/-- Packed position `k` sits at `(p, q)` exactly when `slot p q` is `k`: the two tables are inverse to each other. -/
theorem slot_iff : ∀ (k : Fin 6) (p q : Fin 3), (rowOf k = p ∧ colOf k = q) ↔ slot p q = some k := by decide

/-- The lower-triangular matrix of one packed row `l`: entry `(p, q)`. -/
def triRow (l : Fin 6 → EReal) (p q : Fin 3) : EReal :=
  match slot p q with
  | some k => l k
  | none => 0

/-- The Gram matrix `L Lᵀ` of one packed row: entry `(p, q)`. -/
def gramRow (l : Fin 6 → EReal) (p q : Fin 3) : EReal :=
  ∑ k : Fin 3, triRow l p k * triRow l q k

/-- Row `b` of the packed input. -/
def row (x : SIn.Idx → EReal) (b : Fin 8388608) : Fin 6 → EReal := fun k => x (ix2 b k)

/-- The result array: at `(b, p, q)` the Gram matrix of row `b` at `(p, q)`. -/
def G (x : SIn.Idx → EReal) : SOut.Idx → EReal := fun i => gramRow (row x (i 0)) (i 1) (i 2)

theorem G_apply (x : SIn.Idx → EReal) (b : Fin 8388608) (p q : Fin 3) : G x (ix3 b p q) = gramRow (row x b) p q := rfl

/-- The nine entries of `L Lᵀ` in closed form, row-major, from the six packed entries. -/
def closed (l : Fin 6 → EReal) : Fin 9 → EReal :=
  ![l 0 * l 0, l 0 * l 1, l 0 * l 3,
    l 0 * l 1, l 1 * l 1 + l 2 * l 2, l 1 * l 3 + l 2 * l 4,
    l 0 * l 3, l 1 * l 3 + l 2 * l 4, l 3 * l 3 + l 4 * l 4 + l 5 * l 5]

/-- The closed form IS the Gram matrix: entry `3 p + q` of the nine is `∑ₖ L p k · L q k`. The zeros of `L` drop out of
    the sum (`0 · a = 0`, `a + 0 = a`), and below the diagonal the product is taken in the other order. -/
theorem closed_eq_gramRow (l : Fin 6 → EReal) (p q : Fin 3) :
    closed l ⟨3 * p.val + q.val, by omega⟩ = gramRow l p q := by
  have s00 : slot 0 0 = some 0 := rfl
  have s01 : slot 0 1 = none := rfl
  have s02 : slot 0 2 = none := rfl
  have s10 : slot 1 0 = some 1 := rfl
  have s11 : slot 1 1 = some 2 := rfl
  have s12 : slot 1 2 = none := rfl
  have s20 : slot 2 0 = some 3 := rfl
  have s21 : slot 2 1 = some 4 := rfl
  have s22 : slot 2 2 = some 5 := rfl
  unfold gramRow
  rw [Fin.sum_univ_three]
  fin_cases p <;> fin_cases q <;> simp [closed, triRow, s00, s01, s02, s10, s11, s12, s20, s21, s22, mul_comm]

end Cert.CholGram

end
-- ==== Proof.KernelValue.lean ====
/-
  The kernel's result, read index by index at the ideal instance: it is the Gram array `G` of the argument.

  The body. One grid point loads a block of 65536 packed rows, cuts its six columns, forms the nine closed-form
  entries of `L Lᵀ` by products and sums of columns, and lays them side by side as a 65536 × 9 block: entry
  `(r, c)` of the block is `closed` of row `r` at `c` (`pay_apply`).

  The blocks. Point `t` reads rows `65536 t … 65536 t + 65535` of the argument and writes the same rows of the
  65536·128 × 9 result array, and the 128 points cover it, so the array after the region holds `closed` of each row
  of the argument (`final`). The host then re-reads that array as 3 × 3 matrices, row-major: entry `(b, p, q)` is
  column `3 p + q` of row `b`, which is the Gram matrix of row `b` at `(p, q)` (`closed_eq_gramRow`).
-/
import proofs.«117667_j54941221650671_1_alg».proof.Proof.Gen.KernelIdeal.Frame
import proofs.«117667_j54941221650671_1_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Cert.CholGram

/-! ## The body's payload at an index -/

/-- Column `k` of a block of packed rows, cut out as a 65536 × 1 slice, read at row `r`. -/
theorem slice_col (x0 : FVec Ideal S65536x6 .f32) (off : Fin 2 → Nat) (h : S65536x6.Slices off S65536x1) (k : Fin 6)
    (h0 : off 0 = 0) (h1 : off 1 = k.val) (r : Fin 65536) :
    extractStridedSlice S65536x1 off x0 h (ix2 r (0 : Fin 1)) = x0 (ix2 r k) :=
  extractStridedSlice_apply off x0 h _ _ (fun a => by
    match a with
    | ⟨0, _⟩ => show r.val = off 0 + r.val; omega
    | ⟨1, _⟩ => show k.val = off 1 + 0; omega)

/-- Nine 65536 × 1 columns, to be laid side by side. -/
abbrev cols9 {α : Type} (f : Fin 9 → (S65536x1.Idx → α)) : List ((s : Shape) × (s.Idx → α)) :=
  [⟨S65536x1, f 0⟩, ⟨S65536x1, f 1⟩, ⟨S65536x1, f 2⟩, ⟨S65536x1, f 3⟩, ⟨S65536x1, f 4⟩,
    ⟨S65536x1, f 5⟩, ⟨S65536x1, f 6⟩, ⟨S65536x1, f 7⟩, ⟨S65536x1, f 8⟩]

/-- Nine 65536 × 1 columns laid side by side, read at `(r, c)`: column `c` at row `r`. -/
theorem concat9_apply {α : Type} (f : Fin 9 → (S65536x1.Idx → α))
    (h : Shape.Concatenates ((cols9 f).map (fun x => x.1)) S65536x9 1) (r : Fin 65536) (c : Fin 9) :
    concatenate S65536x9 1 (cols9 f) h (ix2 r c) = f c (ix2 r (0 : Fin 1)) := by
  have key : ∀ (k : Nat) (hk : k < 9), c.val = k →
      concatenate S65536x9 1 (cols9 f) h (ix2 r c) = f ⟨k, hk⟩ (ix2 r (0 : Fin 1)) := by
    intro k hk hck
    refine concatenate_apply_piece 1 _ h (ix2 r c) k (by simpa using hk) S65536x1 (f ⟨k, hk⟩) ?_ rfl k ?_ (ix2 r (0 : Fin 1)) ?_ ?_
    · interval_cases k <;> rfl
    · interval_cases k <;> rfl
    · intro b hb
      match b with
      | ⟨0, _⟩ => rfl
      | ⟨1, _⟩ => exact absurd rfl hb
    · show k + 0 = c.val; omega
  exact key c.val c.isLt rfl

/-- The body's stored value at `(r, c)`: the closed-form entry `c` of `L Lᵀ` for row `r` of the loaded block. -/
theorem pay_apply (x0 : FVec Ideal S65536x6 .f32) (r : Fin 65536) (c : Fin 9) :
    k0_pay1 (F := Ideal) x0 (ix2 r c) = closed (fun k => x0 (ix2 r k)) c := by
  have e0 := slice_col x0 ![0, 0] slices_S65536x6_o0_0_S65536x1 0 rfl rfl r
  have e1 := slice_col x0 ![0, 1] slices_S65536x6_o0_1_S65536x1 1 rfl rfl r
  have e2 := slice_col x0 ![0, 2] slices_S65536x6_o0_2_S65536x1 2 rfl rfl r
  have e3 := slice_col x0 ![0, 3] slices_S65536x6_o0_3_S65536x1 3 rfl rfl r
  have e4 := slice_col x0 ![0, 4] slices_S65536x6_o0_4_S65536x1 4 rfl rfl r
  have e5 := slice_col x0 ![0, 5] slices_S65536x6_o0_5_S65536x1 5 rfl rfl r
  unfold k0_pay1
  refine (concat9_apply (α := EReal) ![_, _, _, _, _, _, _, _, _] _ r c).trans ?_
  fin_cases c <;> simp [closed, mulf_apply, addf_apply, e0, e1, e2, e3, e4, e5]

/-! ## From blocks to the array -/

variable (m : (ℓ : Loc nD τ sig) → Buf (Elt Ideal) ℓ) (ρ : Dev nD → PrngReg)

/-- The result array before the host re-reads it: row `R` holds the nine closed-form entries of row `R` of the argument. -/
def rows9 (x : S8388608x6.Idx → EReal) : S8388608x9.Idx → EReal := fun i => closed (fun k => x (ix2 (i 0) k)) (i 1)

theorem rows9_apply (x : S8388608x6.Idx → EReal) (R : Fin 8388608) (c : Fin 9) :
    rows9 x (ix2 R c) = closed (fun k => x (ix2 R k)) c := rfl

theorem hz : (![0, 0] : Fin 2 → Nat) = fun _ => 0 := funext fun a => by fin_cases a <;> rfl

/-- The printed index maps over the grid: both windows are at block row `t`, block column 0, at point `t`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem t_lt (t : Fin cfg0.N) : t.val < 128 := lt_of_lt_of_eq t.isLt N_0

/-- Entry `(r, k)` of the input block at point `t` is entry `(65536 t + r, k)` of the argument. -/
theorem iblk_apply (c : Dev nD) (t : Fin cfg0.N) (r : Fin 65536) (k : Fin 6) :
    (iblk m c 0 t : FVec Ideal S65536x6 .f32) (ix2 r k)
      = (m ((c : Thread nD τ).loc main_arg0) : S8388608x6.Idx → EReal) (ix2 ⟨t.val * 65536 + r.val, by have := t_lt t; omega⟩ k) := by
  obtain ⟨e0, e1, -, -⟩ := idx_facts t
  show V m c main_arg0 (((cfg0.win 0).blk t).view.emb (ix2 r k)) = _
  rw [V_main_arg0]
  refine congrArg (m ((c : Thread nD τ).loc main_arg0) : S8388608x6.Idx → EReal) (funext fun a => Fin.ext ?_)
  match a with
  | ⟨0, _⟩ => show win0_0.index t (0 : Fin 2) * 65536 + 1 * r.val = t.val * 65536 + r.val; omega
  | ⟨1, _⟩ => show win0_0.index t (1 : Fin 2) * 6 + 1 * k.val = k.val; omega

/-- Entry `(r, cc)` of the output block at point `t` is entry `(65536 t + r, cc)` of the result array. -/
theorem oblk_emb (t : Fin cfg0.N) (r : Fin 65536) (cc : Fin 9) :
    (((cfg0.win 1).blk t).view.emb (ix2 r cc) : S8388608x9.Idx) = ix2 ⟨t.val * 65536 + r.val, by have := t_lt t; omega⟩ cc := by
  obtain ⟨-, -, e2, e3⟩ := idx_facts t
  funext a; apply Fin.ext
  match a with
  | ⟨0, _⟩ => show win0_1.index t (0 : Fin 2) * 65536 + 1 * r.val = t.val * 65536 + r.val; omega
  | ⟨1, _⟩ => show win0_1.index t (1 : Fin 2) * 9 + 1 * cc.val = cc.val; omega

/-- What point `t` writes back is block `t` of `rows9` of the argument. -/
theorem flushed_eq (c : Dev nD) (t : Fin cfg0.N) :
    (dats m 0 c).flushed 1 t = ((cfg0.win 1).blk t).view.read (Elt Ideal) (rows9 (m ((c : Thread nD τ).loc main_arg0))) := by
  show (cfg0.win 1).cut (grid0.coords t) ((dats m 0 c).after 1 t) = _
  rw [after0_1]
  unfold out0_1
  rw [View.canon_unit_zero hz]
  simp only [View.ld_unit_zero (S := S65536x6) hz]
  funext j
  obtain ⟨r, cc, rfl⟩ : ∃ (r : Fin 65536) (cc : Fin 9), j = ix2 r cc := ⟨j 0, j 1, eq_ix2 j⟩
  refine (pay_apply (iblk m c 0 t) r cc).trans ?_
  show _ = rows9 (m ((c : Thread nD τ).loc main_arg0)) (((cfg0.win 1).blk t).view.emb (ix2 r cc))
  rw [oblk_emb t r cc, rows9_apply]
  exact congrArg (fun l => closed l cc) (funext fun k => iblk_apply m c t r k)

/-- An index of the result array is in point `t`'s block iff each coordinate is in the block's range on its axis. -/
theorem mem_blk (t : Fin cfg0.N) (i : S8388608x9.Idx) :
    i ∈ ((cfg0.win 1).blk t).view.set ↔ ∀ a : Fin 2, win0_1.index t a * S65536x9.size a ≤ (i a).val ∧ (i a).val < win0_1.index t a * S65536x9.size a + S65536x9.size a := by
  show i ∈ ((View.whole main_v0).slice (win0_1.rect t)).set ↔ _
  rw [View.set_slice_whole, Rect.mem_set_unit]
  exact Iff.rfl

/-- The 128 blocks cover the result array: row `R` is in the block of point `R / 65536`. -/
theorem cover (i : S8388608x9.Idx) : ∃ t : Fin cfg0.N, (cfg0.win 1).flush t = true ∧ i ∈ ((cfg0.win 1).blk t).view.set := by
  have hi0 : (i 0).val < 8388608 := (i 0).isLt
  have hi1 : (i 1).val < 9 := (i 1).isLt
  let t : Fin cfg0.N := Fin.cast N_0.symm ⟨(i 0).val / 65536, by omega⟩
  have ht : t.val = (i 0).val / 65536 := rfl
  obtain ⟨-, -, e2, e3⟩ := idx_facts t
  refine ⟨t, flush0_1 t, ?_⟩
  rw [mem_blk]
  intro a
  match a with
  | ⟨0, _⟩ => show win0_1.index t (0 : Fin 2) * 65536 ≤ (i 0).val ∧ (i 0).val < win0_1.index t (0 : Fin 2) * 65536 + 65536; omega
  | ⟨1, _⟩ => show win0_1.index t (1 : Fin 2) * 9 ≤ (i 1).val ∧ (i 1).val < win0_1.index t (1 : Fin 2) * 9 + 9; omega

/-- The result array after the region. -/
theorem final (c : Dev nD) : (dats m 0 c).arrAt 1 cfg0.N = rows9 (m ((c : Thread nD τ).loc main_arg0)) :=
  (dats m 0 c).arrAt_eq_of_cover 1 (rows9 (m ((c : Thread nD τ).loc main_arg0))) (fun t _ => flushed_eq m c t) cover

/-! ## The host's re-reading as 3 × 3 matrices -/

/-- The host operation after the region leaves `G` of the argument in @main's result. -/
theorem tail_eq (c : Dev nD) :
    Pipeline.afterTail₀ cfgs (dats m) 0 (V0 m) [hostOps1] c main_v1 = G (m ((c : Thread nD τ).loc main_arg0)) := by
  unfold Pipeline.afterTail₀
  show StableHlo.after hostOps1 _ (Proc.devRef .tc main_v1) = _
  after_results
  rw [Pipeline.withArrays_arr spec0 launch0.win.arr_inj c _ _ 1, final m c]
  funext i
  obtain ⟨b, p, q, rfl⟩ : ∃ (b : Fin 8388608) (p q : Fin 3), i = ix3 b p q := ⟨i 0, i 1, i 2, eq_ix3 i⟩
  refine (shapeCast_apply _ _ (ix3 b p q) (ix2 b ⟨3 * p.val + q.val, by omega⟩) ?_).trans ?_
  · rw [Shape.rowMajor_val_two, Shape.rowMajor_val_three]
    show b.val * 9 + (3 * p.val + q.val) = (b.val * 3 + p.val) * 3 + q.val
    omega
  · rw [rows9_apply, G_apply]
    exact closed_eq_gramRow _ p q

/-- The run, read: @main's result at `G` of the argument, the argument unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0))
      ∧ r.2.mem ((c : Thread nD τ).loc main_arg0) = m ((c : Thread nD τ).loc main_arg0) :=
  (θ_run defs _ _).mono (fun r h c =>
      ⟨((h c).2 main_v1 (Pipeline.mem_restRefs_of main_v1 rfl (by decide))).trans (tail_eq m c),
       ((h c).1 0).trans (((dats m 0 c).arrAt_in 0 rfl _).trans ((A_eq m c 0).trans (V_main_arg0 m c)))⟩)
    (run_main m ρ)

end Cert.KernelIdeal.KValue

end
-- ==== Proof.RefRun.lean ====
/-
  The reference program's run, read back.

  @main of the reference is a straight line of nineteen host operations: two index tables (the matrix rows
  `[0, 1, 1, 2, 2, 2]` and columns `[0, 0, 1, 0, 1, 2]` of the six packed positions, each passed through jnp's
  negative-index normalisation `select (i < 0) (i + 3) i`, which the constant-false masks turn into the identity),
  laid side by side as a 6 × 2 table of index vectors (`idxTab`); a scatter of the packed input into a zero array
  of 3 × 3 matrices at those positions (`triArr`); and the batched product of that array with itself contracted
  over the last axis (`refTerm`). Every weakly fair execution terminates with the result buffer at `refTerm` of the
  argument and the argument unchanged.
-/
import proofs.«117667_j54941221650671_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The matrix rows of the packed positions, after the index normalisation. -/
def rowTab : IVec S6 32 :=
  select (constantI S6 1 0#1) (addi (fun i => lit0 (S6.rowMajor i)) (broadcastInDim S6 ![] bcast_S_S6 (constantI S_ 32 3#32))) (fun i => lit0 (S6.rowMajor i))

/-- The matrix columns of the packed positions, after the index normalisation. -/
def colTab : IVec S6 32 :=
  select (constantI S6 1 0#1) (addi (fun i => lit1 (S6.rowMajor i)) (broadcastInDim S6 ![] bcast_S_S6 (constantI S_ 32 3#32))) (fun i => lit1 (S6.rowMajor i))

/-- The scatter's index vectors: row `k` is `(row, column)` of packed position `k`. -/
def idxTab : IVec S6x2 32 :=
  concatenate S6x2 1 [⟨S6x1, broadcastInDim S6x1 ![0] bcast_S6_S6x1_0 rowTab⟩, ⟨S6x1, broadcastInDim S6x1 ![0] bcast_S6_S6x1_0 colTab⟩] concatenates_S6x1_S6x1_S6x2_d1

/-- The packed input scattered into zero matrices. -/
def triArr (x : FVec F S8388608x6 .f32) : FVec F S8388608x3x3 .f32 :=
  Host.scatter scatter_S8388608x3x3_S6x2_S8388608x6_0_12_12_1 (fun _ b => b)
    (broadcastInDim S8388608x3x3 ![] bcast_S_S8388608x3x3 (constant (F := F) S_ .f32 0x00000000#32)) idxTab x

/-- The reference's result as a function of its argument. -/
def refTerm (x : FVec F S8388608x6 .f32) : FVec F S8388608x3x3 .f32 :=
  Host.dotGeneral dot_S8388608x3x3_S8388608x3x3_S8388608x3x3_2_2_1_1_0_0 none (triArr x) (triArr x)

/-- @main's 19 operations, in order. -/
abbrev ops : List (HloOp τ sig (Elt F)) :=
  [ nullary main_c (fun i => lit0 (S6.rowMajor i)),
    nullary main_c_0 (constantI S6 1 0#1),
    nullary main_c_1 (fun i => lit1 (S6.rowMajor i)),
    nullary main_c_2 (constantI S6 1 0#1),
    nullary main_cst (constant S_ .f32 0x00000000#32),
    unary main_cst main_v0 (broadcastInDim S8388608x3x3 ![] bcast_S_S8388608x3x3 : (⟨S_, .f32⟩ : BufTy).Contents (Elt F) → (⟨S8388608x3x3, .f32⟩ : BufTy).Contents (Elt F)),
    nullary main_c_3 (constantI S_ 32 3#32),
    unary main_c_3 main_v1 (broadcastInDim S6 ![] bcast_S_S6 : (⟨S_, .i32⟩ : BufTy).Contents (Elt F) → (⟨S6, .i32⟩ : BufTy).Contents (Elt F)),
    binary main_c main_v1 main_v2 (addi : (⟨S6, .i32⟩ : BufTy).Contents (Elt F) → (⟨S6, .i32⟩ : BufTy).Contents (Elt F) → (⟨S6, .i32⟩ : BufTy).Contents (Elt F)),
    ternary main_c_0 main_v2 main_c main_v3 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    nullary main_c_4 (constantI S_ 32 3#32),
    unary main_c_4 main_v4 (broadcastInDim S6 ![] bcast_S_S6 : (⟨S_, .i32⟩ : BufTy).Contents (Elt F) → (⟨S6, .i32⟩ : BufTy).Contents (Elt F)),
    binary main_c_1 main_v4 main_v5 (addi : (⟨S6, .i32⟩ : BufTy).Contents (Elt F) → (⟨S6, .i32⟩ : BufTy).Contents (Elt F) → (⟨S6, .i32⟩ : BufTy).Contents (Elt F)),
    ternary main_c_2 main_v5 main_c_1 main_v6 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v3 main_v7 (broadcastInDim S6x1 ![0] bcast_S6_S6x1_0 : (⟨S6, .i32⟩ : BufTy).Contents (Elt F) → (⟨S6x1, .i32⟩ : BufTy).Contents (Elt F)),
    unary main_v6 main_v8 (broadcastInDim S6x1 ![0] bcast_S6_S6x1_0 : (⟨S6, .i32⟩ : BufTy).Contents (Elt F) → (⟨S6x1, .i32⟩ : BufTy).Contents (Elt F)),
    binary main_v7 main_v8 main_v9 ((fun a b => concatenate S6x2 1 [⟨S6x1, a⟩, ⟨S6x1, b⟩] concatenates_S6x1_S6x1_S6x2_d1) : (⟨S6x1, .i32⟩ : BufTy).Contents (Elt F) → (⟨S6x1, .i32⟩ : BufTy).Contents (Elt F) → (⟨S6x2, .i32⟩ : BufTy).Contents (Elt F)),
    ternary main_v0 main_v9 main_arg0 main_v10 ((fun x i u => Host.scatter scatter_S8388608x3x3_S6x2_S8388608x6_0_12_12_1 (fun _ b => b) x i u) : (⟨S8388608x3x3, .f32⟩ : BufTy).Contents (Elt F) → (⟨S6x2, .i32⟩ : BufTy).Contents (Elt F) → (⟨S8388608x6, .f32⟩ : BufTy).Contents (Elt F) → (⟨S8388608x3x3, .f32⟩ : BufTy).Contents (Elt F)),
    binary main_v10 main_v10 main_v11 ((fun l r => Host.dotGeneral dot_S8388608x3x3_S8388608x3x3_S8388608x3x3_2_2_1_1_0_0 none l r) : (⟨S8388608x3x3, .f32⟩ : BufTy).Contents (Elt F) → (⟨S8388608x3x3, .f32⟩ : BufTy).Contents (Elt F) → (⟨S8388608x3x3, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub ..,
    nullary_bufs_sub .., unary_bufs_sub .., binary_bufs_sub .., ternary_bufs_sub .., nullary_bufs_sub .., unary_bufs_sub ..,
    binary_bufs_sub .., ternary_bufs_sub .., unary_bufs_sub .., unary_bufs_sub .., binary_bufs_sub .., ternary_bufs_sub ..,
    binary_bufs_sub ..⟩

/-- On every device, for any float values, from any memory with zero counters: every weakly fair execution of @main
    terminates with the result at `refTerm` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v11).trans (by unfold refTerm triArr idxTab rowTab colTab; after_results; rfl),
      (h c main_arg0).trans (by after_results)⟩)
    (run_seq scopedRefs_eq scopedSems_eq defs main (fun _ => ops) main_eq (fun _ => ops_sub) m ρ)

end Cert.ReferenceIdeal.RefRun

end
-- ==== Proof.LibScatterSet.lean ====
/-
  A host scatter whose body returns the update (jnp's `x.at[idx].set(v)`), read at one index of the result.

  `Host.scatter d f x idx upd` is the left fold, over the update indices in row-major order, of the step that
  replaces the element at the update's landing index (`ScatterDims.resultIdx?`) by `f old new`. For `f = fun _ b => b`
  the element at `i` after the fold is the update of the LAST update index that lands at `i`, and the operand's own
  element when none does. Two consequences are stated here, for any dimension numbers and any element type:

  * `scatter_set_hit`: if update index `j₀` lands at `i` and is the only one that does, the result at `i` is `upd j₀`;
  * `scatter_set_miss`: if no update index lands at `i`, the result at `i` is `x i`.

  Where an update lands is characterised coordinate by coordinate (`resultIdx?_eq_some_iff`): update index `j` lands at
  `i` exactly when on every operand axis `a` the coordinate `i a` is the start index's component plus the window
  coordinate, `d.start j idx a + d.window j a`, as integers.
-/
import Idealize.ShloMosaic.PureOps.ShapeOps
import Idealize.ShloMosaic.PureOps.Dims

namespace Idealize.ShloMosaic.ScatterSet

open Idealize.ShloMosaic

/-! ## A fold of "write `v n` at `g n`" steps, read at one position -/

section Fold
variable {ι κ α : Type} (g : ι → Option κ) (v : ι → α) (step : (κ → α) → ι → (κ → α)) (i : κ)

/-- If no step of the list writes at `i`, the fold leaves the start value there. `hkeep`: a step that does not
    write at `i` keeps the value at `i`. -/
theorem foldl_miss (hkeep : ∀ r n, g n ≠ some i → step r n i = r i) :
    ∀ (l : List ι) (x : κ → α), (∀ n ∈ l, g n ≠ some i) → l.foldl step x i = x i
  | [], _, _ => rfl
  | a :: l, x, h => by
    rw [List.foldl_cons, foldl_miss hkeep l (step x a) (fun n hn => h n (List.mem_cons_of_mem _ hn))]
    exact hkeep x a (h a (List.mem_cons_self ..))

/-- If `n₀` is in the list, writes at `i`, and is the only element of the list that does, the fold leaves `v n₀`
    at `i`. `hset`: a step that writes at `i` leaves its value there. -/
theorem foldl_hit (hset : ∀ r n, g n = some i → step r n i = v n)
    (hkeep : ∀ r n, g n ≠ some i → step r n i = r i) (n₀ : ι) (h₀ : g n₀ = some i) :
    ∀ (l : List ι) (x : κ → α), n₀ ∈ l → (∀ n ∈ l, g n = some i → n = n₀) → l.foldl step x i = v n₀
  | [], _, hm, _ => absurd hm (List.not_mem_nil)
  | a :: l, x, hm, hu => by
    rw [List.foldl_cons]
    by_cases hl : n₀ ∈ l
    · exact foldl_hit hset hkeep n₀ h₀ l (step x a) hl (fun n hn => hu n (List.mem_cons_of_mem _ hn))
    · have ha : a = n₀ := by
        rcases List.mem_cons.mp hm with h | h
        · exact h.symm
        · exact absurd h hl
      subst ha
      rw [foldl_miss g step i hkeep l (step x a) (fun n hn hg => hl (hu n (List.mem_cons_of_mem _ hn) hg ▸ hn))]
      exact hset x a h₀

end Fold

/-! ## Where an update lands -/

section Landing
variable {s si u : Shape} (d : ScatterDims s si u) {w : Nat}

/-- Update index `j` lands at operand index `i` exactly when every coordinate of `i` is the start component plus the
    window coordinate on that axis. -/
theorem resultIdx?_eq_some_iff (j : u.Idx) (idx : IVec si w) (i : s.Idx) :
    d.resultIdx? j idx = some i ↔ ∀ a, ((i a).val : Int) = d.start j idx a + d.window j a := by
  unfold ScatterDims.resultIdx?
  split
  · rename_i h
    constructor
    · intro e a
      have e' := Option.some.inj e
      have := congrFun e' a
      rw [← this]
      have := (h a).1
      simp only [Int.toNat_of_nonneg this]
    · intro hi
      refine congrArg some (funext fun a => Fin.ext ?_)
      show (d.start j idx a + d.window j a).toNat = (i a).val
      rw [← hi a]; exact Int.toNat_natCast _
  · rename_i h
    constructor
    · intro e; cases e
    · intro hi
      exact absurd (fun a => by rw [← hi a]; exact ⟨Int.natCast_nonneg _, by exact_mod_cast (i a).isLt⟩) h

end Landing

/-! ## The scatter read at an index -/

section Read
variable {s si u : Shape} {α : Type} {w : Nat} (d : ScatterDims s si u)

/-- The one update index that lands at `i` supplies the result there. -/
theorem scatter_set_hit (x : s.Idx → α) (idx : IVec si w) (upd : u.Idx → α) (i : s.Idx) (j₀ : u.Idx)
    (h₀ : d.resultIdx? j₀ idx = some i) (huniq : ∀ j, d.resultIdx? j idx = some i → j = j₀) :
    Host.scatter d (fun _ b => b) x idx upd i = upd j₀ := by
  unfold Host.scatter
  refine (foldl_hit (fun n : Fin u.numel => d.resultIdx? (u.rowMajor.symm n) idx) (fun n => upd (u.rowMajor.symm n)) _ i
    ?hset ?hkeep (u.rowMajor j₀) ?h0 (List.finRange u.numel) x (List.mem_finRange _) ?hu).trans ?fin
  case hset =>
    intro r n h
    dsimp only
    rw [h]
    exact if_pos rfl
  case hkeep =>
    intro r n h
    dsimp only at h ⊢
    generalize d.resultIdx? (u.rowMajor.symm n) idx = o at h ⊢
    cases o with
    | none => rfl
    | some k => exact if_neg (fun e => h (congrArg some e.symm))
  case h0 => simp only [Equiv.symm_apply_apply]; exact h₀
  case hu =>
    intro n _ hn
    rw [← huniq _ hn, Equiv.apply_symm_apply]
  case fin => simp only [Equiv.symm_apply_apply]

/-- Where no update lands the operand's own element stays. -/
theorem scatter_set_miss (x : s.Idx → α) (idx : IVec si w) (upd : u.Idx → α) (i : s.Idx)
    (hmiss : ∀ j, d.resultIdx? j idx ≠ some i) :
    Host.scatter d (fun _ b => b) x idx upd i = x i := by
  unfold Host.scatter
  refine foldl_miss (fun n : Fin u.numel => d.resultIdx? (u.rowMajor.symm n) idx) _ i ?hkeep (List.finRange u.numel) x
    (fun n _ => hmiss _)
  case hkeep =>
    intro r n h
    dsimp only at h ⊢
    generalize d.resultIdx? (u.rowMajor.symm n) idx = o at h ⊢
    cases o with
    | none => rfl
    | some k => exact if_neg (fun e => h (congrArg some e.symm))

end Read

end Idealize.ShloMosaic.ScatterSet
-- ==== Proof.RefValue.lean ====
/-
  The reference's result, read index by index at the ideal instance: it is the Gram array `G` of the argument.

  The scatter. Update index `(b, k)` (row `b` of the input, packed position `k`) lands at `(b, row k, column k)`:
  on the batch axis the window coordinate, on the two matrix axes the components of index vector `k`
  (`lands_iff`). The six positions are pairwise distinct, so every `(b, p, q)` on or below the diagonal is hit by
  exactly one update and holds `x (b, slot p q)`, and every `(b, p, q)` above the diagonal is hit by none and keeps
  the zero it started with: the scattered array is the lower-triangular matrix `triRow` of each row (`triArr_apply`).

  The product. The batched contraction over the last axis reads, at `(b, p, q)`, the sum over `k` of
  `L (b, p, k) · L (b, q, k)` (`refTerm_apply`), which is `gramRow` of row `b` at `(p, q)`.
-/
import proofs.«117667_j54941221650671_1_alg».proof.Proof.RefRun
import proofs.«117667_j54941221650671_1_alg».proof.Proof.LibScatterSet
import proofs.«117667_j54941221650671_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx Cert.CholGram

/-- The scatter's dimension numbers: the update's axis 0 is the window (the batch axis), the operand's axes 1 and 2
    are addressed by the two components of an index vector. -/
abbrev scat := scatter_S8388608x3x3_S6x2_S8388608x6_0_12_12_1
/-- The product's dimension numbers: batch axis 0, free axis 1, contracted axis 2, on both sides. -/
abbrev dotD := dot_S8388608x3x3_S8388608x3x3_S8388608x3x3_2_2_1_1_0_0

/-! ## The index table -/

/-- Index vector `k`'s first component is the matrix row of packed position `k`. -/
theorem idxTab_row (k : Fin 6) : (idxTab (ix2 k (0 : Fin 2))).toInt = ((rowOf k).val : Int) := by
  fin_cases k <;> rfl

/-- Index vector `k`'s second component is the matrix column of packed position `k`. -/
theorem idxTab_col (k : Fin 6) : (idxTab (ix2 k (1 : Fin 2))).toInt = ((colOf k).val : Int) := by
  fin_cases k <;> rfl

/-! ## Where update `(b, k)` lands -/

theorem start0 (b : Fin 8388608) (k : Fin 6) (idx : IVec S6x2 32) : scat.start (ix2 b k) idx 0 = 0 := rfl
theorem window0 (b : Fin 8388608) (k : Fin 6) : scat.window (ix2 b k) 0 = b.val := rfl
theorem window1 (b : Fin 8388608) (k : Fin 6) : scat.window (ix2 b k) 1 = 0 := rfl
theorem window2 (b : Fin 8388608) (k : Fin 6) : scat.window (ix2 b k) 2 = 0 := rfl
theorem start1 (b : Fin 8388608) (k : Fin 6) (idx : IVec S6x2 32) :
    scat.start (ix2 b k) idx 1 = (idx (ix2 k (0 : Fin 2))).toInt := by
  unfold ScatterDims.start
  rw [dif_pos (by decide)]
  exact congrArg (fun t => (idx t).toInt) (funext fun a => by match a with | ⟨0, _⟩ => rfl | ⟨1, _⟩ => rfl)
theorem start2 (b : Fin 8388608) (k : Fin 6) (idx : IVec S6x2 32) :
    scat.start (ix2 b k) idx 2 = (idx (ix2 k (1 : Fin 2))).toInt := by
  unfold ScatterDims.start
  rw [dif_pos (by decide)]
  exact congrArg (fun t => (idx t).toInt) (funext fun a => by match a with | ⟨0, _⟩ => rfl | ⟨1, _⟩ => rfl)

/-- Update `(b', k')` lands at `(b, p, q)` exactly when it is row `b`'s and position `k'` sits at `(p, q)`. -/
theorem lands_iff (b' : Fin 8388608) (k' : Fin 6) (b : Fin 8388608) (p q : Fin 3) :
    scat.resultIdx? (ix2 b' k') idxTab = some (ix3 b p q) ↔ b' = b ∧ rowOf k' = p ∧ colOf k' = q := by
  rw [ScatterSet.resultIdx?_eq_some_iff]
  constructor
  · intro h
    have h0 : ((b.val : ℕ) : Int) = 0 + ((b'.val : ℕ) : Int) := h 0
    have h1 : ((p.val : ℕ) : Int) = scat.start (ix2 b' k') idxTab 1 + ((0 : ℕ) : Int) := h 1
    have h2 : ((q.val : ℕ) : Int) = scat.start (ix2 b' k') idxTab 2 + ((0 : ℕ) : Int) := h 2
    rw [start1, idxTab_row] at h1
    rw [start2, idxTab_col] at h2
    exact ⟨Fin.ext (by omega), Fin.ext (by omega), Fin.ext (by omega)⟩
  · rintro ⟨rfl, rfl, rfl⟩ a
    match a with
    | ⟨0, _⟩ => show ((b'.val : ℕ) : Int) = 0 + ((b'.val : ℕ) : Int); omega
    | ⟨1, _⟩ =>
      show (((rowOf k').val : ℕ) : Int) = scat.start (ix2 b' k') idxTab 1 + ((0 : ℕ) : Int)
      rw [start1, idxTab_row]; omega
    | ⟨2, _⟩ =>
      show (((colOf k').val : ℕ) : Int) = scat.start (ix2 b' k') idxTab 2 + ((0 : ℕ) : Int)
      rw [start2, idxTab_col]; omega

/-! ## The scattered array is the lower-triangular matrix of each row -/

theorem triArr_apply (x : FVec Ideal S8388608x6 .f32) (b : Fin 8388608) (p q : Fin 3) :
    triArr (F := Ideal) x (ix3 b p q) = triRow (row x b) p q := by
  unfold triArr triRow
  cases hs : slot p q with
  | some k =>
    refine (ScatterSet.scatter_set_hit scat _ idxTab x (ix3 b p q) (ix2 b k)
      ((lands_iff b k b p q).mpr ⟨rfl, (slot_iff k p q).mpr hs⟩) ?_).trans rfl
    intro j hj
    obtain ⟨b', k', rfl⟩ : ∃ (b' : Fin 8388608) (k' : Fin 6), j = ix2 b' k' := ⟨j 0, j 1, eq_ix2 j⟩
    obtain ⟨rfl, hr, hc⟩ := (lands_iff b' k' b p q).mp hj
    have hk := (slot_iff k' p q).mp ⟨hr, hc⟩
    rw [hs] at hk
    cases hk
    rfl
  | none =>
    refine (ScatterSet.scatter_set_miss scat _ idxTab x (ix3 b p q) ?_).trans ?_
    · intro j hj
      obtain ⟨b', k', rfl⟩ : ∃ (b' : Fin 8388608) (k' : Fin 6), j = ix2 b' k' := ⟨j 0, j 1, eq_ix2 j⟩
      obtain ⟨-, hr, hc⟩ := (lands_iff b' k' b p q).mp hj
      have hk := (slot_iff k' p q).mp ⟨hr, hc⟩
      rw [hs] at hk
      cases hk
    · refine (broadcastInDim_apply _ _ _ _ ix0 (fun a => a.elim0)).trans ?_
      rw [constant_apply]
      exact Ideal.ofBits_zero_f32

/-! ## The batched product read at an index -/

theorem lhs0 (b : Fin 8388608) (p q : Fin 3) (kk : dotD.contr.Idx) : (dotD.lhsIdx (ix3 b p q) kk 0).val = b.val := rfl
theorem lhs1 (b : Fin 8388608) (p q : Fin 3) (kk : dotD.contr.Idx) : (dotD.lhsIdx (ix3 b p q) kk 1).val = p.val := rfl
theorem rhs0 (b : Fin 8388608) (p q : Fin 3) (kk : dotD.contr.Idx) : (dotD.rhsIdx (ix3 b p q) kk 0).val = b.val := rfl
theorem rhs1 (b : Fin 8388608) (p q : Fin 3) (kk : dotD.contr.Idx) : (dotD.rhsIdx (ix3 b p q) kk 1).val = q.val := rfl

theorem contr_rank : dotD.contr.rank = 1 := rfl
theorem contr_size : dotD.contr.size ⟨0, by rw [contr_rank]; exact Nat.one_pos⟩ = 3 := rfl

theorem lhs2 (b : Fin 8388608) (p q : Fin 3) (k : Fin 3) :
    (dotD.lhsIdx (ix3 b p q) ((contrEquiv1 dotD 3 contr_rank contr_size).symm k) 2).val = k.val :=
  (DotDims.lhsIdx_val_of_single dotD (cl := 2) rfl _ _).trans (contrEquiv1_symm_val dotD 3 contr_rank contr_size k)
theorem rhs2 (b : Fin 8388608) (p q : Fin 3) (k : Fin 3) :
    (dotD.rhsIdx (ix3 b p q) ((contrEquiv1 dotD 3 contr_rank contr_size).symm k) 2).val = k.val :=
  (DotDims.rhsIdx_val_of_single dotD (cr := 2) rfl _ _).trans (contrEquiv1_symm_val dotD 3 contr_rank contr_size k)

theorem refTerm_apply (x : FVec Ideal S8388608x6 .f32) (b : Fin 8388608) (p q : Fin 3) :
    refTerm (F := Ideal) x (ix3 b p q) = ∑ k : Fin 3, triArr (F := Ideal) x (ix3 b p k) * triArr (F := Ideal) x (ix3 b q k) := by
  unfold refTerm
  show FloatOps.dotGeneral dotD none .single (triArr (F := Ideal) x) (triArr (F := Ideal) x) (ix3 b p q) = _
  rw [Ideal.dotGeneral_apply, ← Equiv.sum_comp (contrEquiv1 dotD 3 contr_rank contr_size).symm]
  refine Finset.sum_congr rfl fun k _ => ?_
  have el : dotD.lhsIdx (ix3 b p q) ((contrEquiv1 dotD 3 contr_rank contr_size).symm k) = ix3 b p k := by
    funext a; apply Fin.ext
    match a with
    | ⟨0, _⟩ => exact lhs0 b p q _
    | ⟨1, _⟩ => exact lhs1 b p q _
    | ⟨2, _⟩ => exact lhs2 b p q k
  have er : dotD.rhsIdx (ix3 b p q) ((contrEquiv1 dotD 3 contr_rank contr_size).symm k) = ix3 b q k := by
    funext a; apply Fin.ext
    match a with
    | ⟨0, _⟩ => exact rhs0 b p q _
    | ⟨1, _⟩ => exact rhs1 b p q _
    | ⟨2, _⟩ => exact rhs2 b p q k
  rw [el, er]

/-! ## The reference computes `G` -/

theorem refTerm_eq_G (x : FVec Ideal S8388608x6 .f32) : refTerm (F := Ideal) x = G x := by
  funext i
  obtain ⟨b, p, q, rfl⟩ : ∃ (b : Fin 8388608) (p q : Fin 3), i = ix3 b p q := ⟨i 0, i 1, i 2, eq_ix3 i⟩
  rw [refTerm_apply, G_apply]
  unfold gramRow
  exact Finset.sum_congr rfl fun k _ => by rw [triArr_apply, triArr_apply]

end Cert.ReferenceIdeal.RefValue

end
-- ==== Proof.lean ====
/-
  The certificate of the packed-Cholesky Gram kernel: `Q = L Lᵀ` for 8388608 packed lower-triangular 3 × 3 factors.

  Both idealized programs end with the array `G` of Proof/Spec.lean: at `(b, p, q)` the sum over `k` of
  `L_b p k · L_b q k`, where `L_b` is row `b` of the input unpacked into a lower-triangular matrix. The kernel
  writes the nine entries in closed form, 65536 rows per grid point, and the host re-reads the 8388608 × 9 array as
  3 × 3 matrices (Proof/KernelValue.lean); the reference scatters the packed entries into zero matrices and contracts
  the result with itself over the last axis (Proof/RefRun.lean, Proof/RefValue.lean). The closed forms are that sum with
  the zero terms dropped and, below the diagonal, the factors in the other order, which is an identity of the extended
  reals that needs no finiteness: the precondition is never opened.

  The three frames are the generated frame runs of the two kernel programs and the reference's run with its result
  dropped; the idealization rewrote nothing, so its conjunct is trivial.
-/
import proofs.«117667_j54941221650671_1_alg».proof.Defs
import proofs.«117667_j54941221650671_1_alg».proof.Proof.Gen.Kernel
import proofs.«117667_j54941221650671_1_alg».proof.Proof.Gen.Kernel.Skeleton
import proofs.«117667_j54941221650671_1_alg».proof.Proof.Gen.Kernel.Launch
import proofs.«117667_j54941221650671_1_alg».proof.Proof.Gen.Kernel.Points
import proofs.«117667_j54941221650671_1_alg».proof.Proof.Gen.Kernel.Frame
import proofs.«117667_j54941221650671_1_alg».proof.Proof.Gen.KernelIdeal
import proofs.«117667_j54941221650671_1_alg».proof.Proof.Gen.KernelIdeal.Skeleton
import proofs.«117667_j54941221650671_1_alg».proof.Proof.Gen.KernelIdeal.Launch
import proofs.«117667_j54941221650671_1_alg».proof.Proof.Gen.KernelIdeal.Points
import proofs.«117667_j54941221650671_1_alg».proof.Proof.Gen.KernelIdeal.Frame
import proofs.«117667_j54941221650671_1_alg».proof.Proof.Gen.ReferenceIdeal
import proofs.«117667_j54941221650671_1_alg».proof.Proof.Gen.Pre_finite_inputs
import proofs.«117667_j54941221650671_1_alg».proof.Proof.KernelValue
import proofs.«117667_j54941221650671_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs end at `G` of arguments that agree. -/
theorem algebraic : Cert.algebraic_KernelIdeal_ReferenceIdeal := by
  intro m ρ m' ρ' _ hagree
  refine ⟨fun c => Cert.CholGram.G (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refTerm_eq_G, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
